-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1536x1024 : Shape := ⟨3, ![64, 1536, 1024]⟩
abbrev S512x512 : Shape := ⟨2, ![512, 512]⟩
abbrev S_ : Shape := ⟨0, ![]⟩

class Facts : Prop where
  bcast_S_S64x1536x1024 : S_.BroadcastsInDim S64x1536x1024 (![] : Fin 0 → Fin S64x1536x1024.rank)
  reducesTo_S64x1536x1024_S_d0_1_2 : S64x1536x1024.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S64x1536x1024 .f32) (main_arg1 : FVec F S512x512 .f32) : IVec S_ 1 :=
  let main_v0 : FVec F S64x1536x1024 .f32 := Host.absf main_arg0
  let main_cst : FVec F S_ .f32 := constant S_ .f32 0x7F800000#32
  let main_v1 : FVec F S64x1536x1024 .f32 := broadcastInDim S64x1536x1024 ![] bcast_S_S64x1536x1024 main_cst
  let main_v2 : IVec S64x1536x1024 1 := cmpf .olt main_v0 main_v1
  let main_c : IVec S_ 1 := constantI S_ 1 1#1
  let main_v3 : IVec S_ 1 := (fun x v => Host.reduce IntOp.andi x v reducesTo_S64x1536x1024_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S64x1536x1024 : Shape := ⟨3, ![64, 1536, 1024]⟩
abbrev S512x512 : Shape := ⟨2, ![512, 512]⟩
abbrev S1x1536x1024 : Shape := ⟨3, ![1, 1536, 1024]⟩
abbrev S1x512x1024 : Shape := ⟨3, ![1, 512, 1024]⟩
abbrev S512x1024 : Shape := ⟨2, ![512, 1024]⟩
abbrev S1024 : Shape := ⟨1, ![1024]⟩
abbrev S1x1024 : Shape := ⟨2, ![1, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S64x1536x1024, .f32⟩
  | .hbm, ⟨1, _⟩ => ⟨S512x512, .f32⟩
  | .hbm, ⟨2, _⟩ => ⟨S512x512, .f32⟩
  | .hbm, ⟨3, _⟩ => ⟨S512x512, .bf16⟩
  | .hbm, ⟨4, _⟩ => ⟨S64x1536x1024, .f32⟩
  | .local _ .vmem, ⟨0, _⟩ => ⟨S1x1536x1024, .f32⟩
  | .local _ .vmem, ⟨1, _⟩ => ⟨S1x1536x1024, .f32⟩
  | .local _ .vmem, ⟨2, _⟩ => ⟨S512x512, .bf16⟩
  | .local _ .vmem, ⟨3, _⟩ => ⟨S1x1536x1024, .f32⟩
  | .local _ .vmem, ⟨4, _⟩ => ⟨S1x1536x1024, .f32⟩
  | _, _ => ⟨S64x1536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1536x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S512x512_S512x512_1_0 : S512x512.Transposes [1, 0] S512x512
  bitsLt_bf16_f32 : FTy.bits .bf16 < FTy.bits .f32
  inb_S1x1536x1024_S1x512x1024_0_512_0 : ∀ a, (![0, 512, 0] : Fin 3 → Nat) a + S1x512x1024.size a ≤ S1x1536x1024.size a
  h_S1x512x1024 : 0 < S1x512x1024.numel
  shapeCasts_S1x512x1024_S512x1024 : S1x512x1024.ShapeCasts S512x1024
  shapeCasts_S512x1024_S1x512x1024 : S512x1024.ShapeCasts S1x512x1024
  reduces_S512x1024_S1024 : S512x1024.Reduces [0] S1024
  shapeCasts_S1024_S1x1024 : S1024.ShapeCasts S1x1024
  broadcasts_S1x1024_S512x1024 : S1x1024.Broadcasts S512x1024
  inb_S1x1536x1024_S1x512x1024_0_0_0 : ∀ a, (![0, 0, 0] : Fin 3 → Nat) a + S1x512x1024.size a ≤ S1x1536x1024.size a
  reduces_S512x1024_S512 : S512x1024.Reduces [1] S512
  shapeCasts_S512_S512x1 : S512.ShapeCasts S512x1
  broadcasts_S512x1_S512x1024 : S512x1.Broadcasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1536x1024_S1x512x1024_0_1024_0 : ∀ a, (![0, 1024, 0] : Fin 3 → Nat) a + S1x512x1024.size a ≤ S1x1536x1024.size a
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1536x1024.size a ≤ S64x1536x1024.size a
  hwx0_0 : ∀ i : grid0.Coords, EltTy.bits .f32 = 32 ∨ (Rect.block (s := S64x1536x1024) S1x1536x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1536x1024.size a ≤ S64x1536x1024.size a
  hwx0_2 : ∀ i : grid0.Coords, EltTy.bits .f32 = 32 ∨ (Rect.block (s := S64x1536x1024) S1x1536x1024.size (cc0_transform_2 i) (hinb0_2 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x1536x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1536x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1536x1024 : Shape := ⟨3, ![64, 1536, 1024]⟩
abbrev S512x512 : Shape := ⟨2, ![512, 512]⟩
abbrev S64x512x1024 : Shape := ⟨3, ![64, 512, 1024]⟩
abbrev S64x1024x512 : Shape := ⟨3, ![64, 1024, 512]⟩
abbrev S_ : Shape := ⟨0, ![]⟩
abbrev S64x1024 : Shape := ⟨2, ![64, 1024]⟩
abbrev S64x1024x1 : Shape := ⟨3, ![64, 1024, 1]⟩
abbrev S64x512 : Shape := ⟨2, ![64, 512]⟩
abbrev S64x1x512 : Shape := ⟨3, ![64, 1, 512]⟩

abbrev nBuf : Space → Nat
  | .hbm => 38
  | .vmem => 0
  | .smem => 0
  | _ => 0

abbrev bufTy : (tb : Table) → Fin (tcTables nBuf tb) → BufTy
  | .hbm, ⟨0, _⟩ => ⟨S64x1536x1024, .f32⟩
  | .hbm, ⟨1, _⟩ => ⟨S512x512, .f32⟩
  | .hbm, ⟨2, _⟩ => ⟨S64x512x1024, .f32⟩
  | .hbm, ⟨3, _⟩ => ⟨S64x1024x512, .f32⟩
  | .hbm, ⟨4, _⟩ => ⟨S64x512x1024, .f32⟩
  | .hbm, ⟨5, _⟩ => ⟨S64x1024x512, .f32⟩
  | .hbm, ⟨6, _⟩ => ⟨S64x512x1024, .f32⟩
  | .hbm, ⟨7, _⟩ => ⟨S64x512x1024, .f32⟩
  | .hbm, ⟨8, _⟩ => ⟨S_, .f32⟩
  | .hbm, ⟨9, _⟩ => ⟨S64x1024, .f32⟩
  | .hbm, ⟨10, _⟩ => ⟨S_, .f32⟩
  | .hbm, ⟨11, _⟩ => ⟨S64x1024, .f32⟩
  | .hbm, ⟨12, _⟩ => ⟨S64x1024, .f32⟩
  | .hbm, ⟨13, _⟩ => ⟨S64x1024x1, .f32⟩
  | .hbm, ⟨14, _⟩ => ⟨S64x1024x512, .f32⟩
  | .hbm, ⟨15, _⟩ => ⟨S64x1024x512, .f32⟩
  | .hbm, ⟨16, _⟩ => ⟨S64x1024x512, .f32⟩
  | .hbm, ⟨17, _⟩ => ⟨S_, .f32⟩
  | .hbm, ⟨18, _⟩ => ⟨S64x1024, .f32⟩
  | .hbm, ⟨19, _⟩ => ⟨S64x1024x1, .f32⟩
  | .hbm, ⟨20, _⟩ => ⟨S64x1024x512, .f32⟩
  | .hbm, ⟨21, _⟩ => ⟨S64x1024x512, .f32⟩
  | .hbm, ⟨22, _⟩ => ⟨S_, .f32⟩
  | .hbm, ⟨23, _⟩ => ⟨S64x512, .f32⟩
  | .hbm, ⟨24, _⟩ => ⟨S64x1x512, .f32⟩
  | .hbm, ⟨25, _⟩ => ⟨S_, .f32⟩
  | .hbm, ⟨26, _⟩ => ⟨S64x1x512, .f32⟩
  | .hbm, ⟨27, _⟩ => ⟨S64x1x512, .f32⟩
  | .hbm, ⟨28, _⟩ => ⟨S64x1024x512, .f32⟩
  | .hbm, ⟨29, _⟩ => ⟨S64x1024x512, .f32⟩
  | .hbm, ⟨30, _⟩ => ⟨S64x1024x512, .f32⟩
  | .hbm, ⟨31, _⟩ => ⟨S64x1024x512, .f32⟩
  | .hbm, ⟨32, _⟩ => ⟨S64x1024x512, .f32⟩
  | .hbm, ⟨33, _⟩ => ⟨S64x1024x512, .f32⟩
  | .hbm, ⟨34, _⟩ => ⟨S64x512x1024, .f32⟩
  | .hbm, ⟨35, _⟩ => ⟨S64x512x1024, .f32⟩
  | .hbm, ⟨36, _⟩ => ⟨S64x512x1024, .f32⟩
  | .hbm, ⟨37, _⟩ => ⟨S64x1536x1024, .f32⟩
  | _, _ => ⟨S64x1536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]

class Facts₀ : Prop where
  slices_S64x1536x1024_S64x512x1024_0_0_0 : S64x1536x1024.Slices ![0, 0, 0] S64x512x1024
  transposes_S64x512x1024_S64x1024x512_0_2_1 : S64x512x1024.Transposes [0, 2, 1] S64x1024x512
  slices_S64x1536x1024_S64x512x1024_0_512_0 : S64x1536x1024.Slices ![0, 512, 0] S64x512x1024
  reducesTo_S64x1024x512_S64x1024_d2 : S64x1024x512.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x512_0_1_2 : S64x1024x1.BroadcastsInDim S64x1024x512 (![0, 1, 2] : Fin 3 → Fin S64x1024x512.rank)
  reducesTo_S64x1024x512_S64x512_d1 : S64x1024x512.ReducesTo [1] S64x512
  bcast_S64x512_S64x1x512_0_2 : S64x512.BroadcastsInDim S64x1x512 (![0, 2] : Fin 2 → Fin S64x1x512.rank)
  bcast_S_S64x1x512 : S_.BroadcastsInDim S64x1x512 (![] : Fin 0 → Fin S64x1x512.rank)
  bcast_S64x1x512_S64x1024x512_0_1_2 : S64x1x512.BroadcastsInDim S64x1024x512 (![0, 1, 2] : Fin 3 → Fin S64x1024x512.rank)
  transposes_S64x1024x512_S64x512x1024_0_2_1 : S64x1024x512.Transposes [0, 2, 1] S64x512x1024
  slices_S64x1536x1024_S64x512x1024_0_1024_0 : S64x1536x1024.Slices ![0, 1024, 0] S64x512x1024
  concatenates_S64x512x1024_S64x512x1024_S64x512x1024_S64x1536x1024_d1 : Shape.Concatenates [S64x512x1024, S64x512x1024, S64x512x1024] S64x1536x1024 1
  dot_S64x1024x512_S512x512_S64x1024x512_2_0_01_1_n_n_wf : DotDims.WF S64x1024x512 S512x512 S64x1024x512 [2] [0] [0, 1] [1] [] []

variable [Facts₀]

def dot_S64x1024x512_S512x512_S64x1024x512_2_0_01_1_n_n : DotDims S64x1024x512 S512x512 S64x1024x512 where
  lhsContracting := [2]
  rhsContracting := [0]
  lhsNonContracting := [0, 1]
  rhsNonContracting := [1]
  lhsBatch := []
  rhsBatch := []
  wf := dot_S64x1024x512_S512x512_S64x1024x512_2_0_01_1_n_n_wf

class Facts : Prop extends Facts₀ where

variable [Facts]
-- ==== Proof.LibNary3.lean ====
/-
  A `nary` operation over a LITERAL family of three references (a concatenate of three operands): its result with
  each operand's contents at its own reference.  Under the binder `fun k => F ↑(![x, a, b] k)` a reference is no
  literal and no result lemma applies to it; with the three contents written out, each can be rewritten in turn.
-/
import Idealize.ShloMosaic.Lib.StableHlo.Run

noncomputable section

namespace Idealize.ShloMosaic.StableHlo

variable {τ : Topo} {sig : RefSig} {Val : EltTy → Type}
variable {x a b y : Ref sig .tc}

/-- The result of `nary ![x, a, b] y f` at its own reference: `f` of the three operands' contents, operand `k` read
    at its literal reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.SoftmaxMix.lean ====
/-
  The mathematics both programs compute, on one batch's three slabs of 512 channels by 1024 time steps.

  For a batch, `y` is the value slab, `w` the log-intensity slab, `v` the target slab, and `M` a 512 by 512 matrix.
    * at each time step the weights over the channels are the softmax of `w` down the channel axis, taken with the
      usual shift by the column's maximum: `exp (w d t - max_k w k t) / Σ_k exp (w k t - max_k w k t)`;
    * each channel of `y` is centred by its mean over the 1024 time steps;
    * the mixed signal is `Σ_d weight d t · (y d t - mean d) · M d e + mean e`;
    * the result stacks the mixed signal, `exp w`, and `v` less the mixed signal along the channel axis.

  One arrangement forms the shifted exponential as the product `exp (w d t) · exp (0 - max)` and multiplies by the
  transposed matrix from the left; on the extended reals the product equals `exp (w d t - max)` as soon as
  `w d t` is a real number, whatever the maximum is: at `max = +∞` both sides are `0`, at `max = -∞` both are `+∞`,
  and at a real maximum it is the functional equation of the exponential.
-/
import Idealize.ShloMosaic.PureOps.Ideal
import Idealize.ShloMosaic.PureOps.Ideal.Laws
import Idealize.ShloMosaic.Lib.ValueIdx

noncomputable section

namespace Cert.SoftmaxMix

open Idealize.ShloMosaic Idealize.ShloMosaic.ValueIdx

/-! ## One batch -/

section Batch

variable (w y : Fin 512 → Fin 1024 → EReal)

/-- The largest log-intensity over the channels at time step `t`, as a fold of `max` from `-∞`. -/
def chanMax (t : Fin 1024) : EReal :=
  (Finset.univ : Finset (Fin 512)).fold max (Ideal.ofBits .f32 0xFF800000#32) (fun d => w d t)

/-- The shifted exponential `exp (w d t - max)`. -/
def shifted (d : Fin 512) (t : Fin 1024) : EReal := Ideal.exp (w d t - chanMax w t)

/-- The softmax weight of channel `d` at time step `t`. -/
def weight (d : Fin 512) (t : Fin 1024) : EReal := Ideal.div (shifted w d t) (∑ k : Fin 512, shifted w k t)

/-- The mean of channel `d` of `y` over the 1024 time steps. -/
def timeMean (d : Fin 512) : EReal := Ideal.div (∑ t : Fin 1024, y d t) (Ideal.ofBits .f32 0x44800000#32)

/-- The mixed signal at output channel `e` and time step `t`. -/
def mixed (M : Fin 512 → Fin 512 → EReal) (e : Fin 512) (t : Fin 1024) : EReal :=
  (∑ d : Fin 512, weight w d t * (y d t - timeMean y d) * M d e) + timeMean y e

/-- The shifted exponential formed as a product of two exponentials. -/
def shiftedProd (d : Fin 512) (t : Fin 1024) : EReal :=
  Ideal.exp (w d t) * Ideal.exp (Ideal.ofBits .f32 0x00000000#32 - chanMax w t)

/-- The softmax weight over the product form. -/
def weightProd (d : Fin 512) (t : Fin 1024) : EReal := Ideal.div (shiftedProd w d t) (∑ k : Fin 512, shiftedProd w k t)

/-- The mixed signal with the transposed matrix `Mt e d` multiplying from the left, over the product form. -/
def mixedLeft (Mt : Fin 512 → Fin 512 → EReal) (e : Fin 512) (t : Fin 1024) : EReal :=
  (∑ d : Fin 512, Mt e d * (weightProd w d t * (y d t - timeMean y d))) + timeMean y e

end Batch

/-- For a real `a` and any extended real `m`: `exp a · exp (0 - m) = exp (a - m)`. -/
theorem exp_mul_exp_zero_sub (a : ℝ) (m : EReal) :
    Ideal.exp (a : EReal) * Ideal.exp (0 - m) = Ideal.exp ((a : EReal) - m) := by
  induction m using EReal.rec with
  | bot =>
    rw [sub_eq_add_neg, sub_eq_add_neg, EReal.neg_bot, zero_add, EReal.coe_add_top, Ideal.exp_top, Ideal.exp_coe]
    exact EReal.coe_mul_top_of_pos (Real.exp_pos a)
  | coe r =>
    rw [zero_sub, ← EReal.coe_neg, ← EReal.coe_sub, Ideal.exp_coe, Ideal.exp_coe, Ideal.exp_coe, ← EReal.coe_mul,
      sub_eq_add_neg, Real.exp_add]
  | top =>
    rw [sub_eq_add_neg, sub_eq_add_neg, EReal.neg_top, zero_add, EReal.add_bot, Ideal.exp_bot, mul_zero]

/-- Where every log-intensity is a real number the product form is the shifted exponential. -/
theorem shiftedProd_eq (w : Fin 512 → Fin 1024 → EReal) (hw : ∀ d t, ∃ r : ℝ, w d t = (r : EReal)) (d : Fin 512) (t : Fin 1024) :
    shiftedProd w d t = shifted w d t := by
  obtain ⟨r, hr⟩ := hw d t
  unfold shiftedProd shifted
  rw [hr, Ideal.ofBits_zero_f32]
  exact exp_mul_exp_zero_sub r _

/-- So the left-multiplied product arrangement is the mixed signal, by commutativity of the product. -/
theorem mixedLeft_eq (w y : Fin 512 → Fin 1024 → EReal) (hw : ∀ d t, ∃ r : ℝ, w d t = (r : EReal))
    (M : Fin 512 → Fin 512 → EReal) (e : Fin 512) (t : Fin 1024) :
    mixedLeft w y (fun e d => M d e) e t = mixed w y M e t := by
  have hs : shiftedProd w = shifted w := funext fun d => funext fun t => shiftedProd_eq w hw d t
  unfold mixedLeft mixed weightProd weight
  rw [hs]
  exact congrArg (· + timeMean y e) (Finset.sum_congr rfl fun d _ => mul_comm _ _)

/-! ## The whole array -/

/-- Row `d` of the value slab, of the log-intensity slab and of the target slab on the stacked channel axis. -/
def rowY (d : Fin 512) : Fin 1536 := ⟨d.val, by have := d.isLt; omega⟩
def rowW (d : Fin 512) : Fin 1536 := ⟨512 + d.val, by have := d.isLt; omega⟩
def rowV (d : Fin 512) : Fin 1536 := ⟨1024 + d.val, by have := d.isLt; omega⟩

section Array

variable (x : (⟨3, ![64, 1536, 1024]⟩ : Shape).Idx → EReal) (M : (⟨2, ![512, 512]⟩ : Shape).Idx → EReal)

/-- Batch `b`'s three slabs, and the matrix by its two coordinates. -/
def slabY (b : Fin 64) : Fin 512 → Fin 1024 → EReal := fun d t => x (ix3 b (rowY d) t)
def slabW (b : Fin 64) : Fin 512 → Fin 1024 → EReal := fun d t => x (ix3 b (rowW d) t)
def slabV (b : Fin 64) : Fin 512 → Fin 1024 → EReal := fun d t => x (ix3 b (rowV d) t)
def mat : Fin 512 → Fin 512 → EReal := fun d e => M (ix2 d e)

/-- The result array: rows 0 to 511 of a batch hold the mixed signal, rows 512 to 1023 the intensities `exp w`,
    rows 1024 to 1535 the targets less the mixed signal. -/
def G : (⟨3, ![64, 1536, 1024]⟩ : Shape).Idx → EReal := fun i =>
  if h : (i 1).val < 512 then mixed (slabW x (i 0)) (slabY x (i 0)) (mat M) ⟨(i 1).val, h⟩ (i 2)
  else if (i 1).val < 1024 then Ideal.exp (x i)
  else x i - mixed (slabW x (i 0)) (slabY x (i 0)) (mat M)
    ⟨(i 1).val - 1024, by have h1 : (i 1).val < 1536 := (i 1).isLt; omega⟩ (i 2)

theorem G_mixed (b : Fin 64) (e : Fin 512) (t : Fin 1024) :
    G x M (ix3 b (rowY e) t) = mixed (slabW x b) (slabY x b) (mat M) e t := by
  unfold G
  rw [dif_pos (show ((ix3 b (rowY e) t) 1).val < 512 from e.isLt)]
  rfl

theorem G_intensity (b : Fin 64) (d : Fin 512) (t : Fin 1024) :
    G x M (ix3 b (rowW d) t) = Ideal.exp (x (ix3 b (rowW d) t)) := by
  unfold G
  rw [dif_neg (show ¬ ((ix3 b (rowW d) t) 1).val < 512 from by show ¬ (512 + d.val < 512); omega),
    if_pos (show ((ix3 b (rowW d) t) 1).val < 1024 from by show 512 + d.val < 1024; have := d.isLt; omega)]

theorem G_residual (b : Fin 64) (e : Fin 512) (t : Fin 1024) :
    G x M (ix3 b (rowV e) t) = x (ix3 b (rowV e) t) - mixed (slabW x b) (slabY x b) (mat M) e t := by
  unfold G
  rw [dif_neg (show ¬ ((ix3 b (rowV e) t) 1).val < 512 from by show ¬ (1024 + e.val < 512); omega),
    if_neg (show ¬ ((ix3 b (rowV e) t) 1).val < 1024 from by show ¬ (1024 + e.val < 1024); omega)]
  refine congrArg (fun k => x (ix3 b (rowV e) t) - mixed (slabW x b) (slabY x b) (mat M) k t) (Fin.ext ?_)
  show 1024 + e.val - 1024 = e.val
  omega

end Array

end Cert.SoftmaxMix

end
-- ==== Proof.RefIsMix.lean ====
/-
  The reference computes the mathematics of `Cert.SoftmaxMix`: stage by stage, each of its operations read at an index.

  The reference works on all 64 batches at once with time step before channel (`[64, 1024, 512]`): the value and
  log-intensity slabs are slices of the input transposed; the column maximum is a maximum-reduction over the channel
  axis from `-∞` (a further maximum with `-∞` changes nothing); the shifted exponentials, their sum over the channels
  and the quotient give the softmax weights; the time mean is a sum over the time axis divided by 1024; the matrix
  product contracts the channel axis; the result is transposed back and concatenated with the intensities and the
  residual along the channel axis.
-/
import proofs.«413270_j91130616087186_3_alg».proof.Proof.RefRead
import proofs.«413270_j91130616087186_3_alg».proof.Proof.SoftmaxMix
import Idealize.ShloMosaic.Lib.ValueIdx
import Idealize.ShloMosaic.Lib.Pipeline.Value
import Idealize.ShloMosaic.PureOps.Ideal.Laws
import Idealize.ShloMosaic.PureOps.Reduce

noncomputable section

namespace Cert.RefIsMix

open Idealize.ShloMosaic Idealize.ShloMosaic.ValueIdx Cert.ReferenceIdeal Cert.ReferenceIdeal.Gen Cert.ReferenceIdeal.ReadP Cert.SoftmaxMix

variable (x0 : (⟨S64x1536x1024, .f32⟩ : BufTy).Contents (Elt Ideal)) (x1 : (⟨S512x512, .f32⟩ : BufTy).Contents (Elt Ideal))

/-- Two indices with equal coordinates are equal: decided coordinate by coordinate. -/
local macro "coords" : tactic => `(tactic| (funext a; apply Fin.ext; fin_cases a <;> rfl))

/-- The transposed value slab at `(b, t, d)` is the input at row `d` of the value rows. -/
theorem values_at (j : S64x1024x512.Idx) : val_main_v1 (F := Ideal) x0 j = slabY x0 (j 0) (j 2) (j 1) := by
  rw [val_main_v1_apply, val_main_v0_apply]
  exact congrArg x0 (by coords)

/-- The transposed log-intensity slab at `(b, t, d)`. -/
theorem logIntensity_at (j : S64x1024x512.Idx) : val_main_v3 (F := Ideal) x0 j = slabW x0 (j 0) (j 2) (j 1) := by
  rw [val_main_v3_apply, val_main_v2_apply]
  exact congrArg x0 (by coords)

/-- Channel `k` put back behind `(b, t)` is the index `(b, t, k)`. -/
theorem lift_channel (h : S64x1024x512.Reduces [2] S64x1024) (j : S64x1024.Idx) (k : Fin (S64x1024x512.size 2)) :
    h.lift j k = ix3 (j 0) (j 1) (⟨k.val, k.isLt⟩ : Fin 512) := by
  funext c; apply Fin.ext
  fin_cases c <;> rfl

/-- The column maximum at `(b, t)`. -/
theorem chanMax_at (j : S64x1024.Idx) : val_main_v8 (F := Ideal) x0 j = chanMax (slabW x0 (j 0)) (j 1) := by
  have hb : Ideal.ofBits .f32 0xFF800000#32 = ⊥ := by simp [Ideal.ofBits, Ideal.ieee]
  have hred : S64x1024x512.Reduces [2] S64x1024 := by decide
  rw [val_main_v8_apply, val_main_v7_apply, val_main_cst_0_apply]
  unfold val_main_v6
  rw [Host.reduce_eq_fold_single FloatOps.maximumf _ _ reducesTo_S64x1024x512_S64x1024_d2 hred h_S_]
  show max (Ideal.ofBits .f32 0xFF800000#32) (Finset.fold max (Ideal.ofBits .f32 0xFF800000#32) (val_main_v3 (F := Ideal) x0 ∘ hred.lift j) Finset.univ) = _
  rw [max_eq_right (by rw [hb]; exact bot_le)]
  have hf : (val_main_v3 (F := Ideal) x0 ∘ hred.lift j) = fun d : Fin 512 => slabW x0 (j 0) d (j 1) :=
    funext fun k => by
      show val_main_v3 (F := Ideal) x0 (hred.lift j k) = _
      rw [lift_channel hred j k]
      exact logIntensity_at x0 _
  exact congrArg (fun f => Finset.fold max (Ideal.ofBits .f32 0xFF800000#32) f (Finset.univ : Finset (Fin 512))) hf

/-- The shifted exponential at `(b, t, d)`. -/
theorem shifted_at (j : S64x1024x512.Idx) : val_main_v12 (F := Ideal) x0 j = shifted (slabW x0 (j 0)) (j 2) (j 1) := by
  rw [val_main_v12_apply, val_main_v11_apply, val_main_v10_apply, val_main_v9_apply, chanMax_at, logIntensity_at]
  rfl

/-- The sum of the shifted exponentials over the channels at `(b, t)`. -/
theorem shiftedSum_at (j : S64x1024.Idx) :
    val_main_v13 (F := Ideal) x0 j = ∑ k : Fin 512, shifted (slabW x0 (j 0)) k (j 1) := by
  rw [val_main_v13_apply, val_main_cst_1_apply]
  show Ideal.ofBits .f32 0x00000000#32 + _ = _
  rw [Ideal.ofBits_zero_f32, zero_add]
  exact Finset.sum_congr rfl fun k _ => shifted_at x0 _

/-- The softmax weight at `(b, t, d)`. -/
theorem weight_at (j : S64x1024x512.Idx) : val_main_v16 (F := Ideal) x0 j = weight (slabW x0 (j 0)) (j 2) (j 1) := by
  rw [val_main_v16_apply, val_main_v15_apply, val_main_v14_apply, shiftedSum_at, shifted_at]
  rfl

/-- The time mean at `(b, ·, d)`. -/
theorem timeMean_at (j : S64x1x512.Idx) : val_main_v20 (F := Ideal) x0 j = timeMean (slabY x0 (j 0)) (j 2) := by
  rw [val_main_v20_apply, val_main_v18_apply, val_main_v17_apply, val_main_v19_apply, val_main_cst_3_apply, val_main_cst_2_apply]
  show Ideal.div (Ideal.ofBits .f32 0x00000000#32 + _) (Ideal.ofBits .f32 0x44800000#32) = _
  rw [Ideal.ofBits_zero_f32, zero_add]
  unfold timeMean
  exact congrArg (fun s => Ideal.div s (Ideal.ofBits .f32 0x44800000#32)) (Finset.sum_congr rfl fun k _ => values_at x0 _)

/-- The weighted centred value at `(b, t, d)`. -/
theorem weighted_at (j : S64x1024x512.Idx) :
    val_main_v23 (F := Ideal) x0 j
      = weight (slabW x0 (j 0)) (j 2) (j 1) * (slabY x0 (j 0) (j 2) (j 1) - timeMean (slabY x0 (j 0)) (j 2)) := by
  rw [val_main_v23_apply, val_main_v22_apply, val_main_v21_apply, weight_at, values_at, timeMean_at]
  rfl

/-- The mixed signal, transposed back, at `(b, e, t)`. -/
theorem mixed_at (j : S64x512x1024.Idx) :
    val_main_v27 (F := Ideal) x0 x1 j = mixed (slabW x0 (j 0)) (slabY x0 (j 0)) (mat x1) (j 1) (j 2) := by
  rw [val_main_v27_apply, val_main_v26_apply, val_main_v24_apply, val_main_v25_apply, timeMean_at]
  unfold mixed
  refine congrArg₂ (· + ·) (Finset.sum_congr rfl fun k _ => ?_) rfl
  rw [weighted_at]
  exact congrArg₂ (· * ·) rfl (congrArg x1 (by coords))

/-- The intensities at `(b, d, t)`. -/
theorem intensity_at (j : S64x512x1024.Idx) :
    val_main_v5 (F := Ideal) x0 j = Ideal.exp (x0 (ix3 (j 0) (rowW (j 1)) (j 2))) := by
  rw [val_main_v5_apply, val_main_v4_apply]
  exact congrArg (fun i => Ideal.exp (x0 i)) (by coords)

/-- The residual at `(b, e, t)`. -/
theorem residual_at (j : S64x512x1024.Idx) :
    val_main_v29 (F := Ideal) x0 x1 j
      = x0 (ix3 (j 0) (rowV (j 1)) (j 2)) - mixed (slabW x0 (j 0)) (slabY x0 (j 0)) (mat x1) (j 1) (j 2) := by
  rw [val_main_v29_apply, val_main_v28_apply, mixed_at]
  exact congrArg (fun i => x0 i - mixed (slabW x0 (j 0)) (slabY x0 (j 0)) (mat x1) (j 1) (j 2)) (by coords)

/-! ## The concatenation along the channel axis -/

/-- The two coordinates off the joined axis carry over unchanged. -/
private theorem off_axis (b : Fin 64) (r : Fin 1536) (d : Fin 512) (t : Fin 1024)
    (a : Fin S64x512x1024.rank) (ha : a.cast (rfl : S64x512x1024.rank = S64x1536x1024.rank) ≠ (1 : Fin S64x1536x1024.rank)) :
    ((ix3 b d t : S64x512x1024.Idx) a).val = ((ix3 b r t : S64x1536x1024.Idx) (a.cast rfl)).val := by
  match a, ha with
  | ⟨0, _⟩, _ => rfl
  | ⟨1, _⟩, ha => exact absurd rfl ha
  | ⟨2, _⟩, _ => rfl

/-- The reference's result array is the array `G` of the two inputs. -/
theorem result_eq : val_main_v30 (F := Ideal) x0 x1 = G x0 x1 := by
  funext i
  obtain ⟨b, r, t, rfl⟩ : ∃ (b : Fin 64) (r : Fin 1536) (t : Fin 1024), i = ix3 b r t := ⟨i 0, i 1, i 2, eq_ix3 i⟩
  unfold val_main_v30
  by_cases h1 : r.val < 512
  · obtain ⟨e, rfl⟩ : ∃ e : Fin 512, r = rowY e := ⟨⟨r.val, h1⟩, Fin.ext rfl⟩
    rw [G_mixed]
    refine (concatenate_apply_piece (1 : Fin S64x1536x1024.rank) _ _ (ix3 b (rowY e) t) 0 (by simp) S64x512x1024
      (val_main_v27 (F := Ideal) x0 x1) rfl rfl 0 rfl (ix3 b e t) (off_axis b (rowY e) e t) ?_).trans (mixed_at x0 x1 _)
    show 0 + e.val = e.val
    omega
  · by_cases h2 : r.val < 1024
    · obtain ⟨d, rfl⟩ : ∃ d : Fin 512, r = rowW d :=
        ⟨⟨r.val - 512, by omega⟩, Fin.ext (by show r.val = 512 + (r.val - 512); omega)⟩
      rw [G_intensity]
      refine (concatenate_apply_piece (1 : Fin S64x1536x1024.rank) _ _ (ix3 b (rowW d) t) 1 (by simp) S64x512x1024
        (val_main_v5 (F := Ideal) x0) rfl rfl 512 rfl (ix3 b d t) (off_axis b (rowW d) d t) ?_).trans (intensity_at x0 _)
      show 512 + d.val = 512 + d.val
      rfl
    · obtain ⟨e, rfl⟩ : ∃ e : Fin 512, r = rowV e :=
        ⟨⟨r.val - 1024, by have := r.isLt; omega⟩, Fin.ext (by show r.val = 1024 + (r.val - 1024); omega)⟩
      rw [G_residual]
      refine (concatenate_apply_piece (1 : Fin S64x1536x1024.rank) _ _ (ix3 b (rowV e) t) 2 (by simp) S64x512x1024
        (val_main_v29 (F := Ideal) x0 x1) rfl rfl 1024 rfl (ix3 b e t) (off_axis b (rowV e) e t) ?_).trans (residual_at x0 x1 _)
      show 1024 + e.val = 1024 + e.val
      rfl

end Cert.RefIsMix

end
-- ==== Proof.FiniteEntries.lean ====
/-
  From the precondition to real entries: the precondition says that every entry of both inputs has absolute value
  below `+∞`; an extended real with that property is neither infinity, so it is a real number.
-/
import proofs.«413270_j91130616087186_3_alg».proof.Pre_finite_inputs
import proofs.«413270_j91130616087186_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.FiniteEntries

open Idealize.ShloMosaic Cert.Pre_finite_inputs

instance : Subsingleton S_.Idx := ⟨fun _ _ => funext fun d => d.elim0⟩

/-- An extended real whose absolute value compares below `+∞` is a real number. -/
theorem real_of_abs_lt_top (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => exfalso; simp [Ideal.cmp] at h
  | coe r => exact ⟨r, rfl⟩
  | top => exfalso; simp [Ideal.cmp] at h

/-- Under the precondition every entry of the first input is a real number. -/
theorem entries_real (x : FVec Ideal S64x1536x1024 .f32) (M : FVec Ideal S512x512 .f32)
    (h : Cert.Pre_finite_inputs.fn (F := Ideal) x M = fun _ => 1#1) (i : S64x1536x1024.Idx) : ∃ r : ℝ, x i = (r : EReal) := by
  have h0 := congrFun h ValueIdx.ix0
  dsimp only [Cert.Pre_finite_inputs.fn] at h0
  obtain ⟨hx, -⟩ := IntOp.andi_eq_one.1 h0
  have e := Host.reduce_andi_all _ _ _ _ _ hx i
  exact real_of_abs_lt_top (x i) e

end Cert.FiniteEntries

end
-- ==== Proof.LayoutAtIndex.lean ====
/-
  Layout operations and one-axis reductions of a matrix read at an index, in the forms a keep-dimensions
  reduction meets: a vector cast to a column, a column broadcast across the columns of a matrix, and the sum or the
  maximum down the rows, or the sum along a row, as a sum or a fold over the reduced coordinate.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutAtIndex

open Idealize.ShloMosaic Idealize.ShloMosaic.ValueIdx

variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `k` put back above column `t` is the index `(k, t)`. -/
theorem lift_rows {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- Column `k` put back beside row `e` is the index `(e, k)`. -/
theorem lift_cols {m n : ℕ} (h : (⟨2, ![m, n]⟩ : Shape).Reduces [1] (⟨1, ![m]⟩ : Shape)) (e : Fin m)
    (k : Fin ((⟨2, ![m, n]⟩ : Shape).size 1)) : h.lift (ix1 e) k = ix2 e (⟨k.val, k.isLt⟩ : Fin n) := by
  funext c; apply Fin.ext
  fin_cases c <;> rfl

/-- The maximum down the rows of a matrix from `-∞`, at column `t`: the fold of `max` from `-∞`. The accumulator's
    evidence is typed as a program spells it, an equation between the two words. -/
theorem colMax_apply {m n : ℕ} (X : FVec Ideal ⟨2, ![m, n]⟩ .f32)
    (h : (⟨2, ![m, n]⟩ : Shape).Reduces [0] (⟨1, ![n]⟩ : Shape)) (hφ : FKind.Formats .f32)
    (hacc : (0xFF800000#32 : BitVec 32) = 0xFF800000#32) (t : Fin n) :
    multiReduction .maximumf [0] ⟨1, ![n]⟩ X 0xFF800000#32 h hφ hacc (ix1 t)
      = (Finset.univ : Finset (Fin m)).fold max (Ideal.ofBits .f32 0xFF800000#32) (fun d => X (ix2 d t)) := by
  refine (Ideal.multiReduction_maximumf_single X 0xFF800000#32 h hφ hacc (ix1 t)).trans ?_
  have hf : (X ∘ h.lift (ix1 t)) = fun d : Fin m => X (ix2 d t) := funext fun k => congrArg X (lift_rows h t k)
  exact congrArg (fun f => Finset.fold max (Ideal.ofBits .f32 0xFF800000#32) f (Finset.univ : Finset (Fin m))) hf

/-- The sum down the rows of a matrix from zero, at column `t`. -/
theorem colSum_apply {m n : ℕ} (X : FVec Ideal ⟨2, ![m, n]⟩ .f32)
    (h : (⟨2, ![m, n]⟩ : Shape).Reduces [0] (⟨1, ![n]⟩ : Shape)) (hφ : FKind.Formats .f32)
    (hacc : (0x00000000#32 : BitVec 32) = 0x00000000#32) (t : Fin n) :
    multiReduction .add [0] ⟨1, ![n]⟩ X 0x00000000#32 h hφ hacc (ix1 t) = ∑ d : Fin m, X (ix2 d t) := by
  refine (Ideal.multiReduction_add_single X 0x00000000#32 h hφ hacc (ix1 t)).trans ?_
  exact Finset.sum_congr rfl fun k _ => congrArg X (lift_rows h t k)

/-- The sum along row `e` of a matrix from zero. -/
theorem rowSum_apply {m n : ℕ} (X : FVec Ideal ⟨2, ![m, n]⟩ .f32)
    (h : (⟨2, ![m, n]⟩ : Shape).Reduces [1] (⟨1, ![m]⟩ : Shape)) (hφ : FKind.Formats .f32)
    (hacc : (0x00000000#32 : BitVec 32) = 0x00000000#32) (e : Fin m) :
    multiReduction .add [1] ⟨1, ![m]⟩ X 0x00000000#32 h hφ hacc (ix1 e) = ∑ k : Fin n, X (ix2 e k) := by
  refine (Ideal.multiReduction_add_single X 0x00000000#32 h hφ hacc (ix1 e)).trans ?_
  exact Finset.sum_congr rfl fun k _ => congrArg X (lift_cols h e k)

end Cert.LayoutAtIndex

end
-- ==== Proof.BodyAtIndex.lean ====
/-
  What the kernel's body stores, read at an index, at the ideal values.

  The body works on one batch: from the block `[1, 1536, 1024]` of the input it loads the log-intensity rows
  (512 to 1023), the value rows (0 to 511) and the target rows (1024 to 1535), and the whole transposed matrix.
  Its three stores hold, at row `d` (or `e`) and time step `t`:
    * `exp w` of the log-intensity block;
    * the mixed signal in the left-multiplied product arrangement (`Cert.SoftmaxMix.mixedLeft`): the column maximum
      and the two column sums are reductions down the rows, the time mean a reduction along a row, the matrix
      product a sum over the contracted channel;
    * the target block less that mixed signal.
-/
import proofs.«413270_j91130616087186_3_alg».proof.Proof.Gen.KernelIdeal.Skeleton
import proofs.«413270_j91130616087186_3_alg».proof.Proof.SoftmaxMix
import proofs.«413270_j91130616087186_3_alg».proof.Proof.LayoutAtIndex
import Idealize.ShloMosaic.Lib.ValueIdx
import Idealize.ShloMosaic.Lib.ValueLayout
import Idealize.ShloMosaic.Lib.Pipeline.Value
import Idealize.ShloMosaic.PureOps.Ideal.Laws

noncomputable section

namespace Cert.BodyAtIndex

open Idealize.ShloMosaic Idealize.ShloMosaic.ValueIdx Cert.KernelIdeal Cert.KernelIdeal.Gen Cert.SoftmaxMix Cert.LayoutAtIndex

/-- A loaded `[1, 512, 1024]` block as a function of channel and time step. -/
def slab (v : Vec Ideal S1x512x1024 .f32) : Fin 512 → Fin 1024 → EReal := fun d t => v (ix3 (0 : Fin 1) d t)

/-- The loaded transposed matrix by its two coordinates. -/
def matT (v : FVec Ideal S512x512 .bf16) : Fin 512 → Fin 512 → EReal := fun e d => v (ix2 e d)

/-- The exponential of a vector at an index. -/
theorem exp_apply {s : Shape} {φ : FTy} (x : FVec Ideal s φ) (i : s.Idx) : exp x i = Ideal.exp (x i) := rfl

/-! ## The matrix product at an index -/

theorem lhs_axis0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_axis1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_axis0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_axis1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The product of a `[512, 512]` matrix with a `[512, 1024]` matrix into a zero accumulator, at `(e, t)`, is the sum
    over the contracted channel. -/
theorem matmul_at (A : FVec Ideal S512x512 .bf16) (B : FVec Ideal S512x1024 .bf16) (e : Fin 512) (t : Fin 1024) :
    matmul dot_S512x512_S512x1024_S512x1024_1_0_0_1_n_n none A B (constant S512x1024 .f32 0x00000000#32) (ix2 e t)
      = ∑ k : Fin 512, A (ix2 e k) * B (ix2 k t) := by
  simp only [matmul]
  rw [Ideal.matmul_constant_zero_apply, ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 e t) ((ValueIdx.contrEquiv1 dot_S512x512_S512x1024_S512x1024_1_0_0_1_n_n 512 rfl rfl).symm k) = ix2 e k := funext fun a => Fin.ext (by
    match a with
    | ⟨0, _⟩ => exact lhs_axis0 _ _
    | ⟨1, _⟩ => exact (lhs_axis1 _ _).trans hk)
  have er : dot_S512x512_S512x1024_S512x1024_1_0_0_1_n_n.rhsIdx (ix2 e t) ((ValueIdx.contrEquiv1 dot_S512x512_S512x1024_S512x1024_1_0_0_1_n_n 512 rfl rfl).symm k) = ix2 k t := funext fun a => Fin.ext (by
    match a with
    | ⟨0, _⟩ => exact (rhs_axis0 _ _).trans hk
    | ⟨1, _⟩ => exact rhs_axis1 _ _)
  rw [el, er]

/-! ## The three stored values -/

/-- The log-intensity block with its unit axis dropped. -/
theorem logIntensity_at (v0 : Vec Ideal S1x512x1024 .f32) (d : Fin 512) (t : Fin 1024) :
    k0_pay2 (F := Ideal) v0 (ix2 d t) = slab v0 d t := by
  unfold k0_pay2
  exact shapeCast_1ab_ab_apply v0 _ d t

/-- The intensity `exp w`. -/
theorem intensity_at (v0 : Vec Ideal S1x512x1024 .f32) (d : Fin 512) (t : Fin 1024) :
    k0_pay3 (F := Ideal) v0 (ix2 d t) = Ideal.exp (slab v0 d t) := by
  unfold k0_pay3
  rw [exp_apply, logIntensity_at]

/-- The stored intensity piece. -/
theorem storedIntensity_at (v0 : Vec Ideal S1x512x1024 .f32) (u : Fin 1) (d : Fin 512) (t : Fin 1024) :
    k0_pay4 (F := Ideal) v0 (ix3 u d t) = Ideal.exp (slab v0 d t) := by
  unfold k0_pay4
  rw [shapeCast_ab_1ab_apply, intensity_at]

/-! ## The mixed signal, vector by vector

The body's intermediate vectors, named, with the evidence their operations carry as variables (typed as the program
spells it: an accumulator's evidence is an equation between the two words), each read at an index. -/

section Vectors

variable (v0 v17 : Vec Ideal S1x512x1024 .f32)
variable (hr0 : S512x1024.Reduces [0] S1024) (hr1 : S512x1024.Reduces [1] S512) (hφ : FKind.Formats .f32)
  (hmax : (0xFF800000#32 : BitVec 32) = 0xFF800000#32) (hzero : (0x00000000#32 : BitVec 32) = 0x00000000#32)
  (hc1 : S1024.ShapeCasts S1x1024) (hb1 : S1x1024.Broadcasts S512x1024)
  (hc2 : S512.ShapeCasts S512x1) (hb2 : S512x1.Broadcasts S512x1024) (hc3 : S1x512x1024.ShapeCasts S512x1024)

/-- The column maximum of the log-intensities, as a row. -/
abbrev maxRow : FVec Ideal S1x1024 .f32 :=
  shapeCast S1x1024 (multiReduction .maximumf [0] S1024 (k0_pay2 (F := Ideal) v0) 0xFF800000#32 hr0 hφ hmax) hc1

/-- The product `exp w · exp (0 - max)`. -/
abbrev prodVec : FVec Ideal S512x1024 .f32 :=
  mulf (k0_pay3 (F := Ideal) v0)
    (broadcastTo S512x1024 (exp (subf (broadcast S1x1024 (Scalar.ofBits .f32 0x00000000#32)) (maxRow v0 hr0 hφ hmax hc1))) hb1)

/-- The column sum of the products, as a row. -/
abbrev sumRow : FVec Ideal S1x1024 .f32 :=
  shapeCast S1x1024 (multiReduction .add [0] S1024 (prodVec v0 hr0 hφ hmax hc1 hb1) 0x00000000#32 hr0 hφ hzero) hc1

/-- The softmax weights. -/
abbrev weightVec : FVec Ideal S512x1024 .f32 :=
  divf (prodVec v0 hr0 hφ hmax hc1 hb1) (broadcastTo S512x1024 (sumRow v0 hr0 hφ hmax hzero hc1 hb1) hb1)

/-- The value block with its unit axis dropped. -/
abbrev valueVec : FVec Ideal S512x1024 .f32 := shapeCast S512x1024 v17 hc3

/-- The time means, as a column. -/
abbrev meanCol : FVec Ideal S512x1 .f32 :=
  divf (shapeCast S512x1 (multiReduction .add [1] S512 (valueVec v17 hc3) 0x00000000#32 hr1 hφ hzero) hc2)
    (broadcast S512x1 (Scalar.ofBits .f32 0x44800000#32))

theorem maxRow_at (u : Fin 1) (t : Fin 1024) : maxRow v0 hr0 hφ hmax hc1 (ix2 u t) = chanMax (slab v0) t := by
  show shapeCast S1x1024 _ hc1 (ix2 u t) = _
  rw [shapeCast_a_1a_apply, colMax_apply]
  unfold chanMax
  exact congrArg (fun f => Finset.fold max (Ideal.ofBits .f32 0xFF800000#32) f (Finset.univ : Finset (Fin 512)))
    (funext fun d => logIntensity_at v0 d t)

theorem prodVec_at (d : Fin 512) (t : Fin 1024) :
    prodVec v0 hr0 hφ hmax hc1 hb1 (ix2 d t) = shiftedProd (slab v0) d t := by
  show mulf _ (broadcastTo S512x1024 _ hb1) (ix2 d t) = _
  rw [mulf_apply, intensity_at, broadcastTo_1b_ab_apply, exp_apply, subf_apply, broadcast_apply, maxRow_at]
  rfl

theorem sumRow_at (u : Fin 1) (t : Fin 1024) :
    sumRow v0 hr0 hφ hmax hzero hc1 hb1 (ix2 u t) = ∑ k : Fin 512, shiftedProd (slab v0) k t := by
  show shapeCast S1x1024 _ hc1 (ix2 u t) = _
  rw [shapeCast_a_1a_apply, colSum_apply]
  exact Finset.sum_congr rfl fun k _ => prodVec_at v0 hr0 hφ hmax hc1 hb1 k t

theorem weightVec_at (d : Fin 512) (t : Fin 1024) :
    weightVec v0 hr0 hφ hmax hzero hc1 hb1 (ix2 d t) = weightProd (slab v0) d t := by
  show divf _ (broadcastTo S512x1024 _ hb1) (ix2 d t) = _
  rw [divf_apply, prodVec_at, broadcastTo_1b_ab_apply, sumRow_at]
  rfl

theorem valueVec_at (d : Fin 512) (t : Fin 1024) : valueVec v17 hc3 (ix2 d t) = slab v17 d t :=
  shapeCast_1ab_ab_apply v17 hc3 d t

theorem meanCol_at (e : Fin 512) (u : Fin 1) :
    meanCol v17 hr1 hφ hzero hc2 hc3 (ix2 e u) = timeMean (slab v17) e := by
  show divf (shapeCast S512x1 _ hc2) _ (ix2 e u) = _
  rw [divf_apply, shapeCast_a_a1_apply, rowSum_apply, broadcast_apply]
  unfold timeMean
  exact congrArg (fun s => Ideal.div s (Ideal.ofBits .f32 0x44800000#32))
    (Finset.sum_congr rfl fun k _ => valueVec_at v17 hc3 e k)

end Vectors

/-- The body's sum `matrix product + mean` over the named vectors: the payload's own term. -/
theorem mixed_eq (v0 v17 : Vec Ideal S1x512x1024 .f32) (v27 : FVec Ideal S512x512 .bf16) :
    k0_pay5 (F := Ideal) v0 v17 v27
      = addf (matmul dot_S512x512_S512x1024_S512x1024_1_0_0_1_n_n none (shapeCast S512x512 v27 shapeCasts_S512x512_S512x512)
            (truncf .bf16 (mulf (weightVec v0 reduces_S512x1024_S1024 (.inl rfl) rfl rfl shapeCasts_S1024_S1x1024 broadcasts_S1x1024_S512x1024)
              (subf (valueVec v17 shapeCasts_S1x512x1024_S512x1024)
                (broadcastTo S512x1024 (meanCol v17 reduces_S512x1024_S512 (.inl rfl) rfl shapeCasts_S512_S512x1 shapeCasts_S1x512x1024_S512x1024) broadcasts_S512x1_S512x1024)))
              bitsLt_bf16_f32)
            (constant S512x1024 .f32 0x00000000#32))
          (broadcastTo S512x1024 (meanCol v17 reduces_S512x1024_S512 (.inl rfl) rfl shapeCasts_S512_S512x1 shapeCasts_S1x512x1024_S512x1024) broadcasts_S512x1_S512x1024) := rfl

/-- The mixed signal the body computes, in the left-multiplied product arrangement. -/
theorem mixed_at (v0 v17 : Vec Ideal S1x512x1024 .f32) (v27 : FVec Ideal S512x512 .bf16) (e : Fin 512) (t : Fin 1024) :
    k0_pay5 (F := Ideal) v0 v17 v27 (ix2 e t) = mixedLeft (slab v0) (slab v17) (matT v27) e t := by
  rw [mixed_eq, addf_apply, matmul_at, broadcastTo_a1_ab_apply, meanCol_at]
  unfold mixedLeft
  refine congrArg (· + timeMean (slab v17) e) (Finset.sum_congr rfl fun k _ => ?_)
  rw [shapeCast_self, truncf_apply, mulf_apply, weightVec_at, subf_apply, valueVec_at, broadcastTo_a1_ab_apply, meanCol_at]
  rfl

/-- The stored mixed-signal piece. -/
theorem storedMixed_at (v0 v17 : Vec Ideal S1x512x1024 .f32) (v27 : FVec Ideal S512x512 .bf16) (u : Fin 1) (e : Fin 512) (t : Fin 1024) :
    k0_pay6 (F := Ideal) v0 v17 v27 (ix3 u e t) = mixedLeft (slab v0) (slab v17) (matT v27) e t := by
  unfold k0_pay6
  rw [shapeCast_ab_1ab_apply, mixed_at]

/-- The stored residual piece: the target block less the mixed signal. -/
theorem storedResidual_at (v31 : FVec Ideal S512x1024 .f32) (v35 : Vec Ideal S1x512x1024 .f32) (u : Fin 1) (e : Fin 512) (t : Fin 1024) :
    k0_pay1 (F := Ideal) v31 v35 (ix3 u e t) = slab v35 e t - v31 (ix2 e t) := by
  unfold k0_pay1
  rw [shapeCast_ab_1ab_apply, subf_apply, shapeCast_1ab_ab_apply]
  rfl

end Cert.BodyAtIndex

end
-- ==== Proof.KernelArray.lean ====
/-
  From the body's block to the whole output array.

  The grid has one point per batch: point `t` stages batch `t` of the input (a `[1, 1536, 1024]` block) and the
  whole transposed matrix, and writes back batch `t` of the output. Read through its three stores, the block the
  body leaves is block `t` of the array `Cert.SoftmaxMix.G` of the two inputs: rows 0 to 511 the mixed signal, rows 512
  to 1023 the intensities, rows 1024 to 1535 the residual. The 64 blocks tile the output, so after the run the
  output array is `G`.
-/
import proofs.«413270_j91130616087186_3_alg».proof.Proof.Gen.KernelIdeal.Value
import proofs.«413270_j91130616087186_3_alg».proof.Proof.BodyAtIndex
import proofs.«413270_j91130616087186_3_alg».proof.Proof.SoftmaxMix
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.SoftmaxMix Cert.BodyAtIndex

variable (m : (ℓ : Loc nD τ sig) → Buf (Elt Ideal) ℓ) (ρ : Dev nD → PrngReg)

/-- The two argument arrays as launched, at their literal types. -/
abbrev xarr (c : Dev nD) : FVec Ideal S64x1536x1024 .f32 := m ((c : Thread nD τ).loc main_arg0)
abbrev marr (c : Dev nD) : FVec Ideal S512x512 .f32 := m ((c : Thread nD τ).loc main_arg1)

/-- The index maps, decided over the 64 grid points: the input and output blocks are batch `t`, the matrix block is the
    whole matrix. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ t.val < 64 :=
  (by decide +kernel : ∀ t : Fin grid0.N, _)

/-- The batch a grid point works on. -/
def batchOf (t : Fin cfg0.N) : Fin 64 := ⟨t.val, (idx_facts t).2.2.2.2.2.2.2.2⟩

/-- The input block at point `t` is batch `t` of the input. -/
theorem xblock_at (c : Dev nD) (t : Fin cfg0.N) (u : Fin 1) (r : Fin 1536) (q : Fin 1024) :
    iblk m c 0 t (ix3 u r q) = xarr m c (ix3 (batchOf t) r q) := by
  obtain ⟨e0, e1, e2, -⟩ := idx_facts t
  unfold iblk
  show V m c main_arg0 (((cfg0.win 0).blk t).view.emb (ix3 u r q)) = _
  rw [V_main_arg0]
  refine congrArg (xarr m c) (funext fun a => Fin.ext ?_)
  match a with
  | ⟨0, _⟩ => show win0_0.index t (0 : Fin 3) * 1 + 1 * u.val = t.val; omega
  | ⟨1, _⟩ => show win0_0.index t (1 : Fin 3) * 1536 + 1 * r.val = r.val; omega
  | ⟨2, _⟩ => show win0_0.index t (2 : Fin 3) * 1024 + 1 * q.val = q.val; omega

/-- The matrix block at any point is the transposed matrix: the host transposes the matrix and changes its format
    before the call. -/
theorem mtblock_at (c : Dev nD) (t : Fin cfg0.N) (e d : Fin 512) :
    iblk m c 1 t (ix2 e d) = marr m c (ix2 d e) := by
  obtain ⟨-, -, -, e3, e4, -⟩ := idx_facts t
  have hV : (V m c main_v1 : S512x512.Idx → EReal)
      = truncf .bf16 (transpose S512x512 [1, 0] (marr m c) transposes_S512x512_S512x512_1_0) bitsLt_bf16_f32 := by
    dsimp only [Gen.V, Gen.hostOps0]; after_results
  have hi : ((cfg0.win 1).blk t).view.emb (ix2 e d) = (ix2 e d : S512x512.Idx) := funext fun a => Fin.ext (by
    match a with
    | ⟨0, _⟩ => show win0_1.index t (0 : Fin 2) * 512 + 1 * e.val = e.val; omega
    | ⟨1, _⟩ => show win0_1.index t (1 : Fin 2) * 512 + 1 * d.val = d.val; omega)
  unfold iblk
  show (V m c main_v1 : S512x512.Idx → EReal) (((cfg0.win 1).blk t).view.emb (ix2 e d)) = _
  rw [hi, hV, truncf_apply, transpose_ix2_apply]

section Block

variable (hfin : ∀ (c : Dev nD) (i : S64x1536x1024.Idx), ∃ r : ℝ, xarr m c i = (r : EReal))
include hfin

/-- What the body leaves in the output block at point `t`, index by index: batch `t` of `G`. -/
theorem body_block (c : Dev nD) (t : Fin cfg0.N) (y : S1x1536x1024.Idx) :
    out0_2 (iblk m c 0 t) (iblk m c 1 t) y = G (xarr m c) (marr m c) (ix3 (batchOf t) (y 1) (y 2)) := by
  -- the three loaded slabs and the loaded matrix, as the inputs' slabs
  have hW : slab (View.ld (iblk m c 0 t) r0_0) = slabW (xarr m c) (batchOf t) := funext fun d => funext fun q => by
    show iblk m c 0 t (r0_0.idx (ix3 (0 : Fin 1) d q)) = xarr m c (ix3 (batchOf t) (rowW d) q)
    rw [show r0_0.idx (ix3 (0 : Fin 1) d q) = (ix3 (0 : Fin 1) (rowW d) q : S1x1536x1024.Idx) from
      funext fun a => Fin.ext (by
        match a with
        | ⟨0, _⟩ => rfl
        | ⟨1, _⟩ => show 512 + 1 * d.val = 512 + d.val; omega
        | ⟨2, _⟩ => show 0 + 1 * q.val = q.val; omega)]
    exact xblock_at m c t 0 (rowW d) q
  have hY : slab (View.ld (iblk m c 0 t) r0_1) = slabY (xarr m c) (batchOf t) := funext fun d => funext fun q => by
    show iblk m c 0 t (r0_1.idx (ix3 (0 : Fin 1) d q)) = xarr m c (ix3 (batchOf t) (rowY d) q)
    rw [show r0_1.idx (ix3 (0 : Fin 1) d q) = (ix3 (0 : Fin 1) (rowY d) q : S1x1536x1024.Idx) from
      funext fun a => Fin.ext (by
        match a with
        | ⟨0, _⟩ => rfl
        | ⟨1, _⟩ => show 0 + 1 * d.val = d.val; omega
        | ⟨2, _⟩ => show 0 + 1 * q.val = q.val; omega)]
    exact xblock_at m c t 0 (rowY d) q
  have hT : slab (View.ld (iblk m c 0 t) r0_3) = slabV (xarr m c) (batchOf t) := funext fun d => funext fun q => by
    show iblk m c 0 t (r0_3.idx (ix3 (0 : Fin 1) d q)) = xarr m c (ix3 (batchOf t) (rowV d) q)
    rw [show r0_3.idx (ix3 (0 : Fin 1) d q) = (ix3 (0 : Fin 1) (rowV d) q : S1x1536x1024.Idx) from
      funext fun a => Fin.ext (by
        match a with
        | ⟨0, _⟩ => rfl
        | ⟨1, _⟩ => show 1024 + 1 * d.val = 1024 + d.val; omega
        | ⟨2, _⟩ => show 0 + 1 * q.val = q.val; omega)]
    exact xblock_at m c t 0 (rowV d) q
  have hM : matT (View.ld (iblk m c 1 t) r0_2) = fun e d => mat (marr m c) d e := funext fun e => funext fun d => by
    show iblk m c 1 t (r0_2.idx (ix2 e d)) = marr m c (ix2 d e)
    rw [show r0_2.idx (ix2 e d) = (ix2 e d : S512x512.Idx) from
      funext fun a => Fin.ext (by
        match a with
        | ⟨0, _⟩ => show 0 + 1 * e.val = e.val; omega
        | ⟨1, _⟩ => show 0 + 1 * d.val = d.val; omega)]
    exact mtblock_at m c t e d
  have hw : ∀ d q, ∃ r : ℝ, slabW (xarr m c) (batchOf t) d q = (r : EReal) := fun d q => hfin c _
  -- the mixed signal of the loaded blocks is the mixed signal of batch `t`
  have hmix : ∀ (e : Fin 512) (q : Fin 1024),
      k0_pay5 (F := Ideal) (View.ld (iblk m c 0 t) r0_0) (View.ld (iblk m c 0 t) r0_1) (View.ld (iblk m c 1 t) r0_2) (ix2 e q)
        = mixed (slabW (xarr m c) (batchOf t)) (slabY (xarr m c) (batchOf t)) (mat (marr m c)) e q := fun e q => by
    refine (mixed_at _ _ _ e q).trans ?_
    rw [hW, hY, hM]
    exact mixedLeft_eq _ _ hw (mat (marr m c)) e q
  unfold out0_2
  refine View.canon_apply_of_pieces (Val := Elt Ideal)
    (fun y : S1x1536x1024.Idx => (G (xarr m c) (marr m c) (ix3 (batchOf t) (y 1) (y 2)) : Elt Ideal .f32)) _ ?_ y (cover0_2 _ _ _ y)
  intro p hp x
  simp only [List.mem_cons, List.not_mem_nil, or_false] at hp
  rcases hp with rfl | rfl | rfl
  · -- rows 1024 to 1535: the residual
    obtain ⟨u, e, q, rfl⟩ : ∃ (u : Fin 1) (e : Fin 512) (q : Fin 1024), x = ix3 u e q := ⟨x 0, x 1, x 2, eq_ix3 x⟩
    have hidx : (ix3 (batchOf t) ((r0_3.emb (ix3 u e q)) 1) ((r0_3.emb (ix3 u e q)) 2) : S64x1536x1024.Idx)
        = ix3 (batchOf t) (rowV e) q := funext fun a => Fin.ext (by
      match a with
      | ⟨0, _⟩ => rfl
      | ⟨1, _⟩ => show 1024 + 1 * e.val = 1024 + e.val; omega
      | ⟨2, _⟩ => show 0 + 1 * q.val = q.val; omega)
    refine (storedResidual_at _ _ u e q).trans ?_
    refine Eq.trans ?_ (congrArg (G (xarr m c) (marr m c)) hidx).symm
    rw [G_residual]
    exact congrArg₂ (· - ·) (congrFun (congrFun hT e) q) (hmix e q)
  · -- rows 0 to 511: the mixed signal
    obtain ⟨u, e, q, rfl⟩ : ∃ (u : Fin 1) (e : Fin 512) (q : Fin 1024), x = ix3 u e q := ⟨x 0, x 1, x 2, eq_ix3 x⟩
    have hidx : (ix3 (batchOf t) ((r0_1.emb (ix3 u e q)) 1) ((r0_1.emb (ix3 u e q)) 2) : S64x1536x1024.Idx)
        = ix3 (batchOf t) (rowY e) q := funext fun a => Fin.ext (by
      match a with
      | ⟨0, _⟩ => rfl
      | ⟨1, _⟩ => show 0 + 1 * e.val = e.val; omega
      | ⟨2, _⟩ => show 0 + 1 * q.val = q.val; omega)
    refine (storedMixed_at _ _ _ u e q).trans ?_
    refine Eq.trans ?_ (congrArg (G (xarr m c) (marr m c)) hidx).symm
    refine ((mixed_at _ _ _ e q).symm.trans (hmix e q)).trans ?_
    rw [G_mixed]
  · -- rows 512 to 1023: the intensities
    obtain ⟨u, d, q, rfl⟩ : ∃ (u : Fin 1) (d : Fin 512) (q : Fin 1024), x = ix3 u d q := ⟨x 0, x 1, x 2, eq_ix3 x⟩
    have hidx : (ix3 (batchOf t) ((r0_0.emb (ix3 u d q)) 1) ((r0_0.emb (ix3 u d q)) 2) : S64x1536x1024.Idx)
        = ix3 (batchOf t) (rowW d) q := funext fun a => Fin.ext (by
      match a with
      | ⟨0, _⟩ => rfl
      | ⟨1, _⟩ => show 512 + 1 * d.val = 512 + d.val; omega
      | ⟨2, _⟩ => show 0 + 1 * q.val = q.val; omega)
    refine (storedIntensity_at _ u d q).trans ?_
    refine Eq.trans ?_ (congrArg (G (xarr m c) (marr m c)) hidx).symm
    rw [G_intensity]
    exact congrArg Ideal.exp (congrFun (congrFun hW d) q)

/-- What point `t` writes back is block `t` of `G`. -/
theorem flushed_eq (c : Dev nD) (t : Fin cfg0.N) :
    (dats m 0 c).flushed 2 t = ((cfg0.win 2).blk t).view.read (Elt Ideal) (G (xarr m c) (marr m c)) := by
  obtain ⟨-, -, -, -, -, e5, e6, e7, -⟩ := idx_facts t
  rw [Cert.KernelIdeal.Value.flushed2]
  funext y
  refine (body_block m hfin c t y).trans (congrArg (G (xarr m c) (marr m c)) (funext fun a => Fin.ext ?_))
  have h0 : (y 0).val < 1 := (y 0).isLt
  match a with
  | ⟨0, _⟩ => show t.val = win0_2.index t (0 : Fin 3) * 1 + 1 * (y 0).val; omega
  | ⟨1, _⟩ => show (y 1).val = win0_2.index t (1 : Fin 3) * 1536 + 1 * (y 1).val; omega
  | ⟨2, _⟩ => show (y 2).val = win0_2.index t (2 : Fin 3) * 1024 + 1 * (y 2).val; omega

end Block

/-- An index of the output is in point `t`'s block iff each coordinate is in the block's range on its axis. -/
theorem mem_blk (t : Fin cfg0.N) (i : S64x1536x1024.Idx) :
    i ∈ ((cfg0.win 2).blk t).view.set ↔ ∀ a : Fin 3, win0_2.index t a * S1x1536x1024.size a ≤ (i a).val
      ∧ (i a).val < win0_2.index t a * S1x1536x1024.size a + S1x1536x1024.size a := by
  show i ∈ ((View.whole main_v2).slice (win0_2.rect t)).set ↔ _
  rw [View.set_slice_whole, Rect.mem_set_unit]
  exact Iff.rfl

/-- Every index of the output lies in the block of the point that works on its batch. -/
theorem covered (i : S64x1536x1024.Idx) :
    ∃ t : Fin cfg0.N, (cfg0.win 2).flush t = true ∧ i ∈ ((cfg0.win 2).blk t).view.set := by
  have hi0 : (i 0).val < 64 := (i 0).isLt
  have hi1 : (i 1).val < 1536 := (i 1).isLt
  have hi2 : (i 2).val < 1024 := (i 2).isLt
  have hN : (i 0).val < cfg0.N := by show (i 0).val < grid0.N; rw [N_0]; exact hi0
  refine ⟨⟨(i 0).val, hN⟩, flush0_2 _, ?_⟩
  obtain ⟨-, -, -, -, -, e5, e6, e7, -⟩ := idx_facts ⟨(i 0).val, hN⟩
  have e5' : win0_2.index ⟨(i 0).val, hN⟩ (0 : Fin 3) = (i 0).val := e5
  rw [mem_blk]
  intro a
  match a with
  | ⟨0, _⟩ => show win0_2.index ⟨(i 0).val, hN⟩ (0 : Fin 3) * 1 ≤ (i 0).val ∧ (i 0).val < win0_2.index ⟨(i 0).val, hN⟩ (0 : Fin 3) * 1 + 1; omega
  | ⟨1, _⟩ => show win0_2.index ⟨(i 0).val, hN⟩ (1 : Fin 3) * 1536 ≤ (i 1).val ∧ (i 1).val < win0_2.index ⟨(i 0).val, hN⟩ (1 : Fin 3) * 1536 + 1536; omega
  | ⟨2, _⟩ => show win0_2.index ⟨(i 0).val, hN⟩ (2 : Fin 3) * 1024 ≤ (i 2).val ∧ (i 2).val < win0_2.index ⟨(i 0).val, hN⟩ (2 : Fin 3) * 1024 + 1024; omega

/-- The output array after the run is `G` of the two inputs, when every entry of the first input is a real number. -/
theorem final (hfin : ∀ (c : Dev nD) (i : S64x1536x1024.Idx), ∃ r : ℝ, xarr m c i = (r : EReal)) (c : Dev nD) :
    (dats m 0 c).arrAt 2 cfg0.N = G (xarr m c) (marr m c) :=
  (dats m 0 c).arrAt_eq_of_cover 2 (G (xarr m c) (marr m c)) (fun t _ => flushed_eq m hfin c t) covered

/-- The kernel's run with the output array named: `G` of the inputs, the inputs unchanged. -/
theorem run (hfin : ∀ (c : Dev nD) (i : S64x1536x1024.Idx), ∃ r : ℝ, xarr m c i = (r : EReal)) :
    θ_run defs (onTc (τ := τ) (main (F := Ideal))) ⟨m, fun _ => 0, ρ⟩ fun r => ∀ c : Dev nD,
      r.2.mem ((c : Thread nD τ).loc main_v2) = G (xarr m c) (marr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hfin c), (h c).2⟩)
    (Cert.KernelIdeal.Value.run_blocks m ρ)

end Cert.KernelArray

end
-- ==== Proof.lean ====
/-
  Channel attention by a softmax over the channels, a centring over time and a small matrix product: the kernel
  against its reference, over the extended reals.

  On each of 64 batches the input stacks three slabs of 512 channels by 1024 time steps: values `y`, log-intensities
  `w` and targets `v`. Both programs compute
    * the softmax weights of `w` down the channel axis at each time step,
    * the values centred by their means over time,
    * the mixed signal `Σ_d weight d t · (y d t - mean d) · M d e + mean e`,
  and return the mixed signal, `exp w` and `v` less the mixed signal, stacked along the channel axis
  (`Cert.SoftmaxMix.G`). The kernel works channel-major on one batch per grid point, forms the shifted exponential as
  the product `exp w · exp (0 - max)` and multiplies by the transposed matrix from the left; the reference works on
  all batches with time before channel and forms `exp (w - max)`. The two agree where every input entry is a real
  number, which is what the precondition says: the product of the two exponentials is then the exponential of the
  difference, whatever the maximum; the rest is commutativity of the product and the order of the sums.

  The frames of the two kernel programs are their generated frames; the reference's frame is its run with the result
  dropped. The idealization rewrote nothing, so there is nothing to preserve.
-/
import proofs.«413270_j91130616087186_3_alg».proof.Defs
import proofs.«413270_j91130616087186_3_alg».proof.Proof.Gen.Kernel
import proofs.«413270_j91130616087186_3_alg».proof.Proof.Gen.Kernel.Skeleton
import proofs.«413270_j91130616087186_3_alg».proof.Proof.Gen.Kernel.Launch
import proofs.«413270_j91130616087186_3_alg».proof.Proof.Gen.Kernel.Points
import proofs.«413270_j91130616087186_3_alg».proof.Proof.Gen.Kernel.Frame
import proofs.«413270_j91130616087186_3_alg».proof.Proof.Gen.KernelIdeal
import proofs.«413270_j91130616087186_3_alg».proof.Proof.Gen.KernelIdeal.Skeleton
import proofs.«413270_j91130616087186_3_alg».proof.Proof.Gen.KernelIdeal.Launch
import proofs.«413270_j91130616087186_3_alg».proof.Proof.Gen.KernelIdeal.Points
import proofs.«413270_j91130616087186_3_alg».proof.Proof.Gen.KernelIdeal.Frame
import proofs.«413270_j91130616087186_3_alg».proof.Proof.Gen.ReferenceIdeal
import proofs.«413270_j91130616087186_3_alg».proof.Proof.Gen.Pre_finite_inputs
import proofs.«413270_j91130616087186_3_alg».proof.Proof.Gen.KernelIdeal.Value
import proofs.«413270_j91130616087186_3_alg».proof.Proof.RefRun
import proofs.«413270_j91130616087186_3_alg».proof.Proof.RefRead
import proofs.«413270_j91130616087186_3_alg».proof.Proof.RefIsMix
import proofs.«413270_j91130616087186_3_alg».proof.Proof.FiniteEntries
import proofs.«413270_j91130616087186_3_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the two inputs, all of whose entries are real numbers, the kernel's output array and the
    reference's result are both the array `G` of the inputs. -/
theorem algebraic : Cert.algebraic_KernelIdeal_ReferenceIdeal := by
  intro m ρ m' ρ' hpre hagree
  have hfin : ∀ (c : Dev Cert.KernelIdeal.nD) (i : Cert.KernelIdeal.S64x1536x1024.Idx),
      ∃ r : ℝ, Cert.KernelArray.xarr m c i = (r : EReal) :=
    fun c i => Cert.FiniteEntries.entries_real _ _ (hpre c) i
  refine ⟨_, Cert.KernelArray.run m ρ hfin, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v30_eq, Cert.RefIsMix.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
